-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S4x1024 : Shape := ⟨2, ![4, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S512x4096 : S_.BroadcastsInDim S512x4096 (![] : Fin 0 → Fin S512x4096.rank)
  reducesTo_S512x4096_S_d0_1 : S512x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4x1024 : S_.BroadcastsInDim S4x1024 (![] : Fin 0 → Fin S4x1024.rank)
  reducesTo_S4x1024_S_d0_1 : S4x1024.ReducesTo [0, 1] S_

variable [Facts]

def fn_part2 {F : FTy → Type} [FloatOps F] (main_arg7 : FVec F S4x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  main_v38

def fn_part1 {F : FTy → Type} [FloatOps F] (main_arg4 : FVec F S1024x4096 .f32) (main_arg5 : FVec F S4096 .f32) (main_arg6 : FVec F S4x1024 .f32) (main_arg7 : FVec F S4x1024 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4x1024 .f32 := Host.absf main_arg6
  let main_cst_10 : FVec F S_ .f32 := constant S_ .f32 0x7F800000#32
  let main_v30 : FVec F S4x1024 .f32 := broadcastInDim S4x1024 ![] bcast_S_S4x1024 main_cst_10
  let main_v31 : IVec S4x1024 1 := cmpf .olt main_v29 main_v30
  let main_c_11 : IVec S_ 1 := constantI S_ 1 1#1
  let main_v32 : IVec S_ 1 := (fun x v => Host.reduce IntOp.andi x v reducesTo_S4x1024_S_d0_1 h_S_) main_v31 main_c_11
  let main_v33 : IVec S_ 1 := andi main_v28 main_v32
  fn_part2 (F := F) main_arg7 main_v33

def fn {F : FTy → Type} [FloatOps F] (main_arg0 : FVec F S8192x512 .f32) (main_arg1 : FVec F S8192x1024 .f32) (main_arg2 : FVec F S8192x1024 .f32) (main_arg3 : FVec F S512x4096 .f32) (main_arg4 : FVec F S1024x4096 .f32) (main_arg5 : FVec F S4096 .f32) (main_arg6 : FVec F S4x1024 .f32) (main_arg7 : FVec F S4x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_arg5 main_arg6 main_arg7 main_v13 main_v16
-- ==== Kernel.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S4x1024 : Shape := ⟨2, ![4, 1024]⟩
abbrev S1x4096 : Shape := ⟨2, ![1, 4096]⟩
abbrev S128x512 : Shape := ⟨2, ![128, 512]⟩
abbrev S128x1024 : Shape := ⟨2, ![128, 1024]⟩
abbrev S128x4096 : Shape := ⟨2, ![128, 4096]⟩
abbrev S1x1024 : Shape := ⟨2, ![1, 1024]⟩
abbrev S128 : Shape := ⟨1, ![128]⟩
abbrev S128x1 : Shape := ⟨2, ![128, 1]⟩

abbrev nBuf : Space → Nat
  | .hbm => 13
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x4096, .f32⟩
  | .hbm, ⟨4, _⟩ => ⟨S1024x4096, .f32⟩
  | .hbm, ⟨5, _⟩ => ⟨S4096, .f32⟩
  | .hbm, ⟨6, _⟩ => ⟨S4x1024, .f32⟩
  | .hbm, ⟨7, _⟩ => ⟨S4x1024, .f32⟩
  | .hbm, ⟨8, _⟩ => ⟨S512x4096, .bf16⟩
  | .hbm, ⟨9, _⟩ => ⟨S1024x4096, .bf16⟩
  | .hbm, ⟨10, _⟩ => ⟨S1x4096, .f32⟩
  | .hbm, ⟨11, _⟩ => ⟨S8192x1024, .f32⟩
  | .hbm, ⟨12, _⟩ => ⟨S8192x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S512x4096, .bf16⟩
  | .local _ .vmem, ⟨7, _⟩ => ⟨S1024x4096, .bf16⟩
  | .local _ .vmem, ⟨8, _⟩ => ⟨S1x4096, .f32⟩
  | .local _ .vmem, ⟨9, _⟩ => ⟨S4x1024, .f32⟩
  | .local _ .vmem, ⟨10, _⟩ => ⟨S4x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  shapeCasts_S4096_S1x4096 : S4096.ShapeCasts S1x4096
  inb_S128x512_S128x512_0_0 : ∀ a, (![0, 0] : Fin 2 → Nat) a + S128x512.size a ≤ S128x512.size a
  h_S128x512 : 0 < S128x512.numel
  inb_S128x1024_S128x1024_0_0 : ∀ a, (![0, 0] : Fin 2 → Nat) a + S128x1024.size a ≤ S128x1024.size a
  h_S128x1024 : 0 < S128x1024.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S128x4096 : S1x4096.Broadcasts S128x4096
  inb_S4x1024_S4x1024_0_0 : ∀ a, (![0, 0] : Fin 2 → Nat) a + S4x1024.size a ≤ S4x1024.size a
  h_S4x1024 : 0 < S4x1024.numel
  slices_S128x4096_o0_0_S128x1024 : S128x4096.Slices ![0, 0] S128x1024
  slices_S4x1024_o0_0_S1x1024 : S4x1024.Slices ![0, 0] S1x1024
  reduces_S128x1024_S128 : S128x1024.Reduces [1] S128
  shapeCasts_S128_S128x1 : S128.ShapeCasts S128x1
  broadcasts_S128x1_S128x1024 : S128x1.Broadcasts S128x1024
  broadcasts_S1x1024_S128x1024 : S1x1024.Broadcasts S128x1024
  slices_S128x4096_o0_1024_S128x1024 : S128x4096.Slices ![0, 1024] S128x1024
  slices_S4x1024_o1_0_S1x1024 : S4x1024.Slices ![1, 0] S1x1024
  slices_S128x4096_o0_2048_S128x1024 : S128x4096.Slices ![0, 2048] S128x1024
  slices_S4x1024_o2_0_S1x1024 : S4x1024.Slices ![2, 0] S1x1024
  slices_S128x4096_o0_3072_S128x1024 : S128x4096.Slices ![0, 3072] S128x1024
  slices_S4x1024_o3_0_S1x1024 : S4x1024.Slices ![3, 0] S1x1024
  dot_S128x512_S512x4096_S128x4096_1_0_0_1_n_n_wf : DotDims.WF S128x512 S512x4096 S128x4096 [1] [0] [0] [1] [] []
  dot_S128x1024_S1024x4096_S128x4096_1_0_0_1_n_n_wf : DotDims.WF S128x1024 S1024x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S8192x512.size a
  hwx0_0 : ∀ i : grid0.Coords, EltTy.bits .f32 = 32 ∨ (Rect.block (s := S8192x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S8192x1024.size a
  hwx0_1 : ∀ i : grid0.Coords, EltTy.bits .f32 = 32 ∨ (Rect.block (s := S8192x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S8192x1024.size a
  hwx0_2 : ∀ i : grid0.Coords, EltTy.bits .f32 = 32 ∨ (Rect.block (s := S8192x1024) S128x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S512x4096.size a
  hwx0_3 : ∀ i : grid0.Coords, EltTy.bits .bf16 = 32 ∨ (Rect.block (s := S512x4096) S512x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1024.size a ≤ S4x1024.size a
  hwx0_7 : ∀ i : grid0.Coords, EltTy.bits .f32 = 32 ∨ (Rect.block (s := S4x1024) S4x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x1024.size a ≤ S8192x1024.size a
  hwx0_8 : ∀ i : grid0.Coords, EltTy.bits .f32 = 32 ∨ (Rect.block (s := S8192x1024) S128x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S8192x1024.size a
  hwx0_9 : ∀ i : grid0.Coords, EltTy.bits .f32 = 32 ∨ (Rect.block (s := S8192x1024) S128x1024.size (cc0_transform_9 i) (hinb0_9 i)).WholeWords (EltTy.packing .f32)

variable [Facts₀]

def dot_S128x512_S512x4096_S128x4096_1_0_0_1_n_n : DotDims S128x512 S512x4096 S128x4096 where
  lhsContracting := [1]
  rhsContracting := [0]
  lhsNonContracting := [0]
  rhsNonContracting := [1]
  lhsBatch := []
  rhsBatch := []
  wf := dot_S128x512_S512x4096_S128x4096_1_0_0_1_n_n_wf
def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S128x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S128x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x512 : Shape := ⟨2, ![8192, 512]⟩
abbrev S8192x1024 : Shape := ⟨2, ![8192, 1024]⟩
abbrev S512x4096 : Shape := ⟨2, ![512, 4096]⟩
abbrev S1024x4096 : Shape := ⟨2, ![1024, 4096]⟩
abbrev S4096 : Shape := ⟨1, ![4096]⟩
abbrev S4x1024 : Shape := ⟨2, ![4, 1024]⟩
abbrev S8192x4096 : Shape := ⟨2, ![8192, 4096]⟩
abbrev S1x4096 : Shape := ⟨2, ![1, 4096]⟩
abbrev S8192x4x1024 : Shape := ⟨3, ![8192, 4, 1024]⟩
abbrev S_ : Shape := ⟨0, ![]⟩
abbrev S8192x4 : Shape := ⟨2, ![8192, 4]⟩
abbrev S8192x4x1 : Shape := ⟨3, ![8192, 4, 1]⟩
abbrev S1x4x1024 : Shape := ⟨3, ![1, 4, 1024]⟩
abbrev S8192x1x1024 : Shape := ⟨3, ![8192, 1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x1024, .f32⟩
  | .hbm, ⟨3, _⟩ => ⟨S512x4096, .f32⟩
  | .hbm, ⟨4, _⟩ => ⟨S1024x4096, .f32⟩
  | .hbm, ⟨5, _⟩ => ⟨S4096, .f32⟩
  | .hbm, ⟨6, _⟩ => ⟨S4x1024, .f32⟩
  | .hbm, ⟨7, _⟩ => ⟨S4x1024, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | .hbm, ⟨14, _⟩ => ⟨S8192x4x1024, .f32⟩
  | .hbm, ⟨15, _⟩ => ⟨S_, .f32⟩
  | .hbm, ⟨16, _⟩ => ⟨S8192x4, .f32⟩
  | .hbm, ⟨17, _⟩ => ⟨S8192x4x1, .f32⟩
  | .hbm, ⟨18, _⟩ => ⟨S_, .f32⟩
  | .hbm, ⟨19, _⟩ => ⟨S8192x4x1, .f32⟩
  | .hbm, ⟨20, _⟩ => ⟨S8192x4x1, .f32⟩
  | .hbm, ⟨21, _⟩ => ⟨S8192x4x1024, .f32⟩
  | .hbm, ⟨22, _⟩ => ⟨S8192x4x1024, .f32⟩
  | .hbm, ⟨23, _⟩ => ⟨S8192x4x1024, .f32⟩
  | .hbm, ⟨24, _⟩ => ⟨S_, .f32⟩
  | .hbm, ⟨25, _⟩ => ⟨S8192x4, .f32⟩
  | .hbm, ⟨26, _⟩ => ⟨S8192x4x1, .f32⟩
  | .hbm, ⟨27, _⟩ => ⟨S_, .f32⟩
  | .hbm, ⟨28, _⟩ => ⟨S8192x4x1, .f32⟩
  | .hbm, ⟨29, _⟩ => ⟨S8192x4x1, .f32⟩
  | .hbm, ⟨30, _⟩ => ⟨S8192x4x1024, .f32⟩
  | .hbm, ⟨31, _⟩ => ⟨S8192x4x1024, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S8192x4x1, .f32⟩
  | .hbm, ⟨36, _⟩ => ⟨S8192x4x1024, .f32⟩
  | .hbm, ⟨37, _⟩ => ⟨S8192x4x1024, .f32⟩
  | .hbm, ⟨38, _⟩ => ⟨S1x4x1024, .f32⟩
  | .hbm, ⟨39, _⟩ => ⟨S8192x4x1024, .f32⟩
  | .hbm, ⟨40, _⟩ => ⟨S8192x4x1024, .f32⟩
  | .hbm, ⟨41, _⟩ => ⟨S1x4x1024, .f32⟩
  | .hbm, ⟨42, _⟩ => ⟨S8192x4x1024, .f32⟩
  | .hbm, ⟨43, _⟩ => ⟨S8192x4x1024, .f32⟩
  | .hbm, ⟨44, _⟩ => ⟨S8192x1x1024, .f32⟩
  | .hbm, ⟨45, _⟩ => ⟨S8192x1024, .f32⟩
  | .hbm, ⟨46, _⟩ => ⟨S8192x1x1024, .f32⟩
  | .hbm, ⟨47, _⟩ => ⟨S8192x1024, .f32⟩
  | .hbm, ⟨48, _⟩ => ⟨S8192x1x1024, .f32⟩
  | .hbm, ⟨49, _⟩ => ⟨S8192x1024, .f32⟩
  | .hbm, ⟨50, _⟩ => ⟨S8192x1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x4x1024 : S8192x4096.ShapeCasts S8192x4x1024
  reducesTo_S8192x4x1024_S8192x4_d2 : S8192x4x1024.ReducesTo [2] S8192x4
  h_S_ : 0 < S_.numel
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S8192x4x1_S8192x4x1024_0_1_2 : S8192x4x1.BroadcastsInDim S8192x4x1024 (![0, 1, 2] : Fin 3 → Fin S8192x4x1024.rank)
  bcast_S4x1024_S1x4x1024_1_2 : S4x1024.BroadcastsInDim S1x4x1024 (![1, 2] : Fin 2 → Fin S1x4x1024.rank)
  bcast_S1x4x1024_S8192x4x1024_0_1_2 : S1x4x1024.BroadcastsInDim S8192x4x1024 (![0, 1, 2] : Fin 3 → Fin S8192x4x1024.rank)
  slices_S8192x4x1024_S8192x1x1024_0_0_0 : S8192x4x1024.Slices ![0, 0, 0] S8192x1x1024
  shapeCasts_S8192x1x1024_S8192x1024 : S8192x1x1024.ShapeCasts S8192x1024
  slices_S8192x4x1024_S8192x1x1024_0_1_0 : S8192x4x1024.Slices ![0, 1, 0] S8192x1x1024
  slices_S8192x4x1024_S8192x1x1024_0_2_0 : S8192x4x1024.Slices ![0, 2, 0] S8192x1x1024
  slices_S8192x4x1024_S8192x1x1024_0_3_0 : S8192x4x1024.Slices ![0, 3, 0] S8192x1x1024
  bcast_S_S8192x1024 : S_.BroadcastsInDim S8192x1024 (![] : Fin 0 → Fin S8192x1024.rank)
  dot_S8192x512_S512x4096_S8192x4096_1_0_0_1_n_n_wf : DotDims.WF S8192x512 S512x4096 S8192x4096 [1] [0] [0] [1] [] []
  dot_S8192x1024_S1024x4096_S8192x4096_1_0_0_1_n_n_wf : DotDims.WF S8192x1024 S1024x4096 S8192x4096 [1] [0] [0] [1] [] []

variable [Facts₀]

def dot_S8192x512_S512x4096_S8192x4096_1_0_0_1_n_n : DotDims S8192x512 S512x4096 S8192x4096 where
  lhsContracting := [1]
  rhsContracting := [0]
  lhsNonContracting := [0]
  rhsNonContracting := [1]
  lhsBatch := []
  rhsBatch := []
  wf := dot_S8192x512_S512x4096_S8192x4096_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf

class Facts : Prop extends Facts₀ where

variable [Facts]
-- ==== Proof.Spec.lean ====
/-
  The LSTM cell with layer-normalised gates, as functions of one batch row, on the extended reals.

  For one row the pre-activations are u = x_r · Wi + h_r · Wh + b, a vector of 4096 entries read as four chunks of
  1024 (input, forget, cell and output gate). Each chunk v is normalised over its 1024 entries:
  mean v = (Σ v) / 1024, var v = (Σ (v - mean v)²) / 1024, and the normalised entry is
  (v_q - mean v) · rsqrt (var v + ε), then scaled by γ and shifted by β. The new cell state is
  σ(f) · c + σ(i) · tanh(g) and the new hidden state is σ(o) · tanh(c').
-/
import Idealize.ShloMosaic.PureOps.Ideal
import Idealize.ShloMosaic.Lib.ValueIdx

noncomputable section

open scoped BigOperators

namespace Cert.Lstm

open Idealize.ShloMosaic Idealize.ShloMosaic.ValueIdx

/-- The number of entries of a gate's chunk, 1024, as the programs spell it. -/
abbrev rowLen : EReal := Ideal.ofBits .f32 0x44800000#32

/-- The layer norm's ε, as both programs spell it (one bit pattern on both sides, never evaluated). -/
abbrev lnEps : EReal := Ideal.ofBits .f32 0x3727C5AC#32

/-- The pre-activations of one row: x_r · Wi + h_r · Wh, then the bias. -/
def pre (xr : Fin 512 → EReal) (hr : Fin 1024 → EReal)
    (Wi : (⟨2, ![512, 4096]⟩ : Shape).Idx → EReal) (Wh : (⟨2, ![1024, 4096]⟩ : Shape).Idx → EReal)
    (b : Fin 4096 → EReal) (j : Fin 4096) : EReal :=
  ((∑ k : Fin 512, xr k * Wi (ix2 k j)) + ∑ k : Fin 1024, hr k * Wh (ix2 k j)) + b j

/-- The mean of a chunk. -/
def mean (v : Fin 1024 → EReal) : EReal := Ideal.div (∑ k : Fin 1024, v k) rowLen

/-- The (biased) variance of a chunk. -/
def var (v : Fin 1024 → EReal) : EReal :=
  Ideal.div (∑ k : Fin 1024, (v k - mean v) * (v k - mean v)) rowLen

/-- A chunk's entry, centred and divided by the standard deviation. -/
def normed (v : Fin 1024 → EReal) (q : Fin 1024) : EReal :=
  (v q - mean v) * Ideal.rsqrt (var v + lnEps)

/-- The 1024 entries of `u` from position `o` on. -/
def chunk (o : Nat) (ho : o + 1024 ≤ 4096) (u : Fin 4096 → EReal) : Fin 1024 → EReal :=
  fun k => u ⟨o + k.val, by have := k.isLt; omega⟩

/-- Gate `g`: its chunk of the pre-activations, normalised, scaled by row `g` of γ and shifted by row `g` of β. -/
def gate (u : Fin 4096 → EReal) (gam bet : (⟨2, ![4, 1024]⟩ : Shape).Idx → EReal)
    (g : Fin 4) (o : Nat) (ho : o + 1024 ≤ 4096) (q : Fin 1024) : EReal :=
  normed (chunk o ho u) q * gam (ix2 g q) + bet (ix2 g q)

/-- The new cell state of a row: σ(forget) · c + σ(input) · tanh(cell). -/
def cellState (u : Fin 4096 → EReal) (gam bet : (⟨2, ![4, 1024]⟩ : Shape).Idx → EReal)
    (cr : Fin 1024 → EReal) (q : Fin 1024) : EReal :=
  Ideal.logistic (gate u gam bet 1 1024 (by omega) q) * cr q
    + Ideal.logistic (gate u gam bet 0 0 (by omega) q) * Ideal.tanh (gate u gam bet 2 2048 (by omega) q)

/-- The new hidden state of a row: σ(output) · tanh(new cell state). -/
def hidden (u : Fin 4096 → EReal) (gam bet : (⟨2, ![4, 1024]⟩ : Shape).Idx → EReal)
    (cr : Fin 1024 → EReal) (q : Fin 1024) : EReal :=
  Ideal.logistic (gate u gam bet 3 3072 (by omega) q) * Ideal.tanh (cellState u gam bet cr q)

/-- Row `r` of the pre-activations, from the whole argument arrays. -/
def preRow (x : (⟨2, ![8192, 512]⟩ : Shape).Idx → EReal) (h : (⟨2, ![8192, 1024]⟩ : Shape).Idx → EReal)
    (Wi : (⟨2, ![512, 4096]⟩ : Shape).Idx → EReal) (Wh : (⟨2, ![1024, 4096]⟩ : Shape).Idx → EReal)
    (bh : (⟨1, ![4096]⟩ : Shape).Idx → EReal) (r : Fin 8192) : Fin 4096 → EReal :=
  pre (fun k => x (ix2 r k)) (fun k => h (ix2 r k)) Wi Wh (fun j => bh (ix1 j))

/-- The new hidden state, whole: entry (r, q) from row r of the arguments. -/
def hiddenArr (x : (⟨2, ![8192, 512]⟩ : Shape).Idx → EReal) (h c : (⟨2, ![8192, 1024]⟩ : Shape).Idx → EReal)
    (Wi : (⟨2, ![512, 4096]⟩ : Shape).Idx → EReal) (Wh : (⟨2, ![1024, 4096]⟩ : Shape).Idx → EReal)
    (bh : (⟨1, ![4096]⟩ : Shape).Idx → EReal) (gam bet : (⟨2, ![4, 1024]⟩ : Shape).Idx → EReal) :
    (⟨2, ![8192, 1024]⟩ : Shape).Idx → EReal :=
  fun i => hidden (preRow x h Wi Wh bh (i 0)) gam bet (fun k => c (ix2 (i 0) k)) (i 1)

/-- The new cell state, whole. -/
def cellArr (x : (⟨2, ![8192, 512]⟩ : Shape).Idx → EReal) (h c : (⟨2, ![8192, 1024]⟩ : Shape).Idx → EReal)
    (Wi : (⟨2, ![512, 4096]⟩ : Shape).Idx → EReal) (Wh : (⟨2, ![1024, 4096]⟩ : Shape).Idx → EReal)
    (bh : (⟨1, ![4096]⟩ : Shape).Idx → EReal) (gam bet : (⟨2, ![4, 1024]⟩ : Shape).Idx → EReal) :
    (⟨2, ![8192, 1024]⟩ : Shape).Idx → EReal :=
  fun i => cellState (preRow x h Wi Wh bh (i 0)) gam bet (fun k => c (ix2 (i 0) k)) (i 1)

end Cert.Lstm

end
-- ==== Proof.LibColumns.lean ====
/-
  KEEPDIMS COLUMN FORMS READ AT AN INDEX (general lemmas; they mention no program).

  A row reduction that keeps its axis leaves a column: an [a] vector cast to [a, 1], then broadcast along the
  second axis to [a, b]. At (i, u) the cast reads the vector at i; at (p, c) the broadcast reads the column at (p, 0).
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else c.val
    rw [if_pos rfl]

end Cert.Lib.Columns
-- ==== Proof.LibRowsByCols.lean ====
/-
  A MATRIX PRODUCT OF THE LEFT OPERAND'S ROWS WITH THE RIGHT OPERAND'S COLUMNS, READ AT AN INDEX (general lemmas; they
  mention no program).

  Take dimension numbers of a product [M, K] × [K, N] → [M, N] that contract the left operand's axis 1 with the right
  operand's axis 0, keep the left axis 0 and the right axis 1, and have no batch axes: the plain x · w. The contraction
  index set has one axis of extent K, so it is Fin K; the left operand's index at result index (i, j) and contraction
  position k is (i, k), the right operand's is (k, j). Hence on the extended reals the vector unit's
  accumulate-into-zero product is, at (i, j), the finite sum over k of l (i, k) · r (k, j).
-/
import Idealize.ShloMosaic.PureOps.Ideal.Laws
import Idealize.ShloMosaic.Lib.ValueIdx

noncomputable section

open scoped BigOperators

namespace Cert.Lib.RowsByCols

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of x · w: contract left axis 1 with right axis 0, keep left axis 0 and right
    axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

end Cert.Lib.RowsByCols

end
-- ==== Proof.KernelBlock.lean ====
/-
  What one grid point's block of each result holds, entry by entry: the kernel's vector operations on its loaded
  blocks, read at an index, are the row functions of the specification applied to the block's rows.
-/
import proofs.«117319_j65120294142269_1_alg».proof.Proof.Gen.KernelIdeal.Value
import proofs.«117319_j65120294142269_1_alg».proof.Proof.Spec
import proofs.«117319_j65120294142269_1_alg».proof.Proof.LibColumns
import proofs.«117319_j65120294142269_1_alg».proof.Proof.LibRowsByCols
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Lstm Cert.Lib

/-- A lane sum along a block's rows: at row `p`, the sum of the row's 1024 entries. -/
theorem rowSum_apply (W : FVec Ideal S128x1024 .f32) (p : Fin 128) :
    multiReduction .add [1] S128 W 0x00000000#32 reduces_S128x1024_S128 (.inl rfl) rfl (ix1 p) = ∑ k : Fin 1024, W (ix2 p k) :=
  (Ideal.multiReduction_add_single W 0x00000000#32 reduces_S128x1024_S128 (.inl rfl) rfl (ix1 p)).trans
    (Finset.sum_congr rfl fun k _ => congrArg W (funext fun a => match a with | ⟨0, _⟩ => rfl | ⟨1, _⟩ => rfl))

/-- The column of row means, as the body computes it: the row sums, kept as a column, over 1024. -/
abbrev meanCol (W : FVec Ideal S128x1024 .f32) : FVec Ideal S128x1 .f32 :=
  divf (shapeCast S128x1 (multiReduction .add [1] S128 W 0x00000000#32 reduces_S128x1024_S128 (.inl rfl) rfl) shapeCasts_S128_S128x1)
    (broadcast S128x1 (Scalar.ofBits .f32 0x44800000#32))

/-- Broadcast back along the row, the column of means reads the row's mean everywhere. -/
theorem meanCol_apply (W : FVec Ideal S128x1024 .f32) (p : Fin 128) (k : Fin 1024) :
    broadcastTo S128x1024 (meanCol W) broadcasts_S128x1_S128x1024 (ix2 p k) = mean (fun k => W (ix2 p k)) := by
  rw [Columns.broadcastTo_a1_ab_apply]
  show Ideal.div (shapeCast S128x1 (multiReduction .add [1] S128 W 0x00000000#32 reduces_S128x1024_S128 (.inl rfl) rfl) shapeCasts_S128_S128x1 (ix2 p (0 : Fin 1))) (Ideal.ofBits .f32 0x44800000#32) = _
  rw [Columns.shapeCast_a_a1_apply, rowSum_apply]
  rfl

/-- An entry minus its row's mean. -/
theorem centred_apply (W : FVec Ideal S128x1024 .f32) (p : Fin 128) (k : Fin 1024) :
    subf W (broadcastTo S128x1024 (meanCol W) broadcasts_S128x1_S128x1024) (ix2 p k) = W (ix2 p k) - mean (fun k => W (ix2 p k)) := by
  rw [subf_apply, meanCol_apply]

/-- The sum of a row's squared deviations from its mean. -/
theorem sqSum_apply (W : FVec Ideal S128x1024 .f32) (p : Fin 128) :
    multiReduction .add [1] S128 (mulf (subf W (broadcastTo S128x1024 (meanCol W) broadcasts_S128x1_S128x1024)) (subf W (broadcastTo S128x1024 (meanCol W) broadcasts_S128x1_S128x1024))) 0x00000000#32 reduces_S128x1024_S128 (.inl rfl) rfl (ix1 p)
      = ∑ k : Fin 1024, (W (ix2 p k) - mean (fun k => W (ix2 p k))) * (W (ix2 p k) - mean (fun k => W (ix2 p k))) := by
  rw [rowSum_apply]
  exact Finset.sum_congr rfl fun k _ => by rw [mulf_apply, centred_apply]

/-- The body's normalised entry is the specification's, of the block's row. The entry `x` and the two reduced
    indices are variables with their equations, so that the lemma rewrites whatever spelling the block's term has. -/
theorem normed_at (W : FVec Ideal S128x1024 .f32) (x : EReal) (j1 j2 : S128.Idx) (p : Fin 128) (q : Fin 1024)
    (hx : x = W (ix2 p q)) (h1 : j1 = ix1 p) (h2 : j2 = ix1 p) :
    FloatOps.mulf (FloatOps.subf (F := Ideal) (φ := .f32) x (FloatOps.divf ((multiReduction .add [1] S128 W 0x00000000#32 reduces_S128x1024_S128 (.inl rfl) rfl) j1) (Scalar.ofBits .f32 0x44800000#32)))
      (FloatOps.rsqrt (FloatOps.addf (FloatOps.divf ((multiReduction .add [1] S128 (mulf (subf W (broadcastTo S128x1024 (divf (shapeCast S128x1 (multiReduction .add [1] S128 W 0x00000000#32 reduces_S128x1024_S128 (.inl rfl) rfl) shapeCasts_S128_S128x1) (broadcast S128x1 (Scalar.ofBits .f32 0x44800000#32))) broadcasts_S128x1_S128x1024)) (subf W (broadcastTo S128x1024 (divf (shapeCast S128x1 (multiReduction .add [1] S128 W 0x00000000#32 reduces_S128x1024_S128 (.inl rfl) rfl) shapeCasts_S128_S128x1) (broadcast S128x1 (Scalar.ofBits .f32 0x44800000#32))) broadcasts_S128x1_S128x1024))) 0x00000000#32 reduces_S128x1024_S128 (.inl rfl) rfl) j2) (Scalar.ofBits .f32 0x44800000#32)) (Scalar.ofBits .f32 0x3727C5AC#32)))
      = normed (fun k => W (ix2 p k)) q := by
  subst hx h1 h2
  rw [rowSum_apply, sqSum_apply]
  rfl

/-- The same, for a chunk cut out of the 4096 pre-activation columns from column `o` on: the normalised entry of the
    block's row `p` of the chunk, at `q`. The entry's index `i` is a variable with its coordinates' equations. -/
theorem normedSlice_at (U : FVec Ideal S128x4096 .f32) (o : Nat) (ho : o + 1024 ≤ 4096) (hs : S128x4096.Slices ![0, o] S128x1024)
    (i : S128x4096.Idx) (j1 j2 : S128.Idx) (p : Fin 128) (q : Fin 1024)
    (hi0 : (i 0).val = p.val) (hi1 : (i 1).val = q.val + o) (h1 : j1 = ix1 p) (h2 : j2 = ix1 p) :
    FloatOps.mulf (FloatOps.subf (F := Ideal) (φ := .f32) (U i) (FloatOps.divf ((multiReduction .add [1] S128 (extractStridedSlice S128x1024 ![0, o] U hs) 0x00000000#32 reduces_S128x1024_S128 (.inl rfl) rfl) j1) (Scalar.ofBits .f32 0x44800000#32)))
      (FloatOps.rsqrt (FloatOps.addf (FloatOps.divf ((multiReduction .add [1] S128 (mulf (subf (extractStridedSlice S128x1024 ![0, o] U hs) (broadcastTo S128x1024 (divf (shapeCast S128x1 (multiReduction .add [1] S128 (extractStridedSlice S128x1024 ![0, o] U hs) 0x00000000#32 reduces_S128x1024_S128 (.inl rfl) rfl) shapeCasts_S128_S128x1) (broadcast S128x1 (Scalar.ofBits .f32 0x44800000#32))) broadcasts_S128x1_S128x1024)) (subf (extractStridedSlice S128x1024 ![0, o] U hs) (broadcastTo S128x1024 (divf (shapeCast S128x1 (multiReduction .add [1] S128 (extractStridedSlice S128x1024 ![0, o] U hs) 0x00000000#32 reduces_S128x1024_S128 (.inl rfl) rfl) shapeCasts_S128_S128x1) (broadcast S128x1 (Scalar.ofBits .f32 0x44800000#32))) broadcasts_S128x1_S128x1024))) 0x00000000#32 reduces_S128x1024_S128 (.inl rfl) rfl) j2) (Scalar.ofBits .f32 0x44800000#32)) (Scalar.ofBits .f32 0x3727C5AC#32)))
      = normed (chunk o ho (fun j => U (ix2 p j))) q := by
  have hx : U i = extractStridedSlice S128x1024 ![0, o] U hs (ix2 p q) := by
    rw [slice2_axis1_eq]
    exact congrArg U (funext fun a => Fin.ext (match a with
      | ⟨0, _⟩ => hi0
      | ⟨1, _⟩ => by show (i 1).val = o + q.val; omega))
  rw [normed_at _ (U i) j1 j2 p q hx h1 h2]
  exact congrArg (normed · q) (funext fun k => slice2_axis1_eq o U hs p k)

/-! ## The pre-activations of a block's row -/

theorem plain_xWi : RowsByCols.Plain dot_S128x512_S512x4096_S128x4096_1_0_0_1_n_n := ⟨rfl, rfl, rfl, rfl, rfl, rfl⟩
theorem plain_hWh : RowsByCols.Plain dot_S128x1024_S1024x4096_S128x4096_1_0_0_1_n_n := ⟨rfl, rfl, rfl, rfl, rfl, rfl⟩

/-- Row `p` of the block's pre-activations: the two products' sums over the contracted index, then the bias row. -/
theorem gates_apply (P0 : Vec Ideal S128x512 .f32) (P1 : Vec Ideal S128x1024 .f32) (P2 : Vec Ideal S512x4096 .bf16) (P3 : Vec Ideal S1024x4096 .bf16) (P4 : Vec Ideal S1x4096 .f32) (p : Fin 128) (j : Fin 4096) :
    k0_pay3 (F := Ideal) P0 P1 P2 P3 P4 (ix2 p j) = pre (fun k => P0 (ix2 p k)) (fun k => P1 (ix2 p k)) P2 P3 (fun j => P4 (ix2 (0 : Fin 1) j)) j := by
  unfold k0_pay3 pre
  show (FloatOps.matmul (F := Ideal) dot_S128x512_S512x4096_S128x4096_1_0_0_1_n_n none (truncf .bf16 P0 bitsLt_bf16_f32) (shapeCast S512x4096 P2 shapeCasts_S512x4096_S512x4096) (constant S128x4096 .f32 0x00000000#32) (ix2 p j)
      + FloatOps.matmul (F := Ideal) dot_S128x1024_S1024x4096_S128x4096_1_0_0_1_n_n none (truncf .bf16 P1 bitsLt_bf16_f32) (shapeCast S1024x4096 P3 shapeCasts_S1024x4096_S1024x4096) (constant S128x4096 .f32 0x00000000#32) (ix2 p j))
      + broadcastTo S128x4096 (shapeCast S1x4096 P4 shapeCasts_S1x4096_S1x4096) broadcasts_S1x4096_S128x4096 (ix2 p j) = _
  rw [RowsByCols.matmul_zero_apply plain_xWi, RowsByCols.matmul_zero_apply plain_hWh, broadcastTo_1b_ab_apply,
    shapeCast_self, shapeCast_self, shapeCast_self]
  rfl

/-! ## The two result blocks, entry by entry -/

/-- The block of the new hidden state at a grid point, at entry (p, q): the specification's `hidden` of row `p` of
    the point's blocks — the four normalised chunks by `normedSlice_at`, the pre-activations by `gates_apply`. -/
theorem hiddenBlock_apply (P0 : Vec Ideal S128x512 .f32) (P1 : Vec Ideal S128x1024 .f32) (P2 : Vec Ideal S512x4096 .bf16) (P3 : Vec Ideal S1024x4096 .bf16) (P4 : Vec Ideal S1x4096 .f32) (P5 : Vec Ideal S4x1024 .f32) (P6 : Vec Ideal S4x1024 .f32) (P7 : Vec Ideal S128x1024 .f32) (p : Fin 128) (q : Fin 1024) :
    Value.E8 (F := Ideal) P0 P1 P2 P3 P4 P5 P6 P7 (ix2 p q)
      = hidden (pre (fun k => P0 (ix2 p k)) (fun k => P1 (ix2 p k)) P2 P3 (fun j => P4 (ix2 (0 : Fin 1) j))) P5 P6 (fun k => P7 (ix2 p k)) q := by
  have hu : pre (fun k => P0 (ix2 p k)) (fun k => P1 (ix2 p k)) P2 P3 (fun j => P4 (ix2 (0 : Fin 1) j)) = fun j => k0_pay3 (F := Ideal) P0 P1 P2 P3 P4 (ix2 p j) :=
    funext fun j => (gates_apply P0 P1 P2 P3 P4 p j).symm
  rw [hu]
  unfold Value.E8
  generalize k0_pay3 (F := Ideal) P0 P1 P2 P3 P4 = U
  have h1 : ∀ j : S128.Idx, (j 0).val = p.val → j = ix1 p := fun j h => funext fun a => Fin.ext (match a with | ⟨0, _⟩ => h)
  rw [normedSlice_at U 3072 (by omega) _ (Value.ix8_0 (ix2 p q)) (Value.ix8_1 (ix2 p q)) (Value.ix8_2 (ix2 p q)) p q rfl rfl (h1 _ rfl) (h1 _ rfl),
    normedSlice_at U 1024 (by omega) _ (Value.ix8_5 (ix2 p q)) (Value.ix8_6 (ix2 p q)) (Value.ix8_7 (ix2 p q)) p q rfl rfl (h1 _ rfl) (h1 _ rfl),
    normedSlice_at U 0 (by omega) _ (Value.ix8_11 (ix2 p q)) (Value.ix8_12 (ix2 p q)) (Value.ix8_13 (ix2 p q)) p q rfl rfl (h1 _ rfl) (h1 _ rfl),
    normedSlice_at U 2048 (by omega) _ (Value.ix8_16 (ix2 p q)) (Value.ix8_17 (ix2 p q)) (Value.ix8_18 (ix2 p q)) p q rfl rfl (h1 _ rfl) (h1 _ rfl)]
  have e_ix8_3 : Value.ix8_3 (ix2 p q) = ix2 (3 : Fin 4) q := funext fun a => match a with | ⟨0, _⟩ => rfl | ⟨1, _⟩ => rfl
  have e_ix8_4 : Value.ix8_4 (ix2 p q) = ix2 (3 : Fin 4) q := funext fun a => match a with | ⟨0, _⟩ => rfl | ⟨1, _⟩ => rfl
  have e_ix8_8 : Value.ix8_8 (ix2 p q) = ix2 (1 : Fin 4) q := funext fun a => match a with | ⟨0, _⟩ => rfl | ⟨1, _⟩ => rfl
  have e_ix8_9 : Value.ix8_9 (ix2 p q) = ix2 (1 : Fin 4) q := funext fun a => match a with | ⟨0, _⟩ => rfl | ⟨1, _⟩ => rfl
  have e_ix8_10 : Value.ix8_10 (ix2 p q) = ix2 p q := funext fun a => match a with | ⟨0, _⟩ => rfl | ⟨1, _⟩ => rfl
  have e_ix8_14 : Value.ix8_14 (ix2 p q) = ix2 (0 : Fin 4) q := funext fun a => match a with | ⟨0, _⟩ => rfl | ⟨1, _⟩ => rfl
  have e_ix8_15 : Value.ix8_15 (ix2 p q) = ix2 (0 : Fin 4) q := funext fun a => match a with | ⟨0, _⟩ => rfl | ⟨1, _⟩ => rfl
  have e_ix8_19 : Value.ix8_19 (ix2 p q) = ix2 (2 : Fin 4) q := funext fun a => match a with | ⟨0, _⟩ => rfl | ⟨1, _⟩ => rfl
  have e_ix8_20 : Value.ix8_20 (ix2 p q) = ix2 (2 : Fin 4) q := funext fun a => match a with | ⟨0, _⟩ => rfl | ⟨1, _⟩ => rfl
  rw [e_ix8_3, e_ix8_4, e_ix8_8, e_ix8_9, e_ix8_10, e_ix8_14, e_ix8_15, e_ix8_19, e_ix8_20]
  rfl

/-- The block of the new cell state at a grid point, at entry (p, q): the specification's `cellState` of row `p`. -/
theorem cellBlock_apply (P0 : Vec Ideal S128x512 .f32) (P1 : Vec Ideal S128x1024 .f32) (P2 : Vec Ideal S512x4096 .bf16) (P3 : Vec Ideal S1024x4096 .bf16) (P4 : Vec Ideal S1x4096 .f32) (P5 : Vec Ideal S4x1024 .f32) (P6 : Vec Ideal S4x1024 .f32) (P7 : Vec Ideal S128x1024 .f32) (p : Fin 128) (q : Fin 1024) :
    Value.E9 (F := Ideal) P0 P1 P2 P3 P4 P5 P6 P7 (ix2 p q)
      = cellState (pre (fun k => P0 (ix2 p k)) (fun k => P1 (ix2 p k)) P2 P3 (fun j => P4 (ix2 (0 : Fin 1) j))) P5 P6 (fun k => P7 (ix2 p k)) q := by
  have hu : pre (fun k => P0 (ix2 p k)) (fun k => P1 (ix2 p k)) P2 P3 (fun j => P4 (ix2 (0 : Fin 1) j)) = fun j => k0_pay3 (F := Ideal) P0 P1 P2 P3 P4 (ix2 p j) :=
    funext fun j => (gates_apply P0 P1 P2 P3 P4 p j).symm
  rw [hu]
  unfold Value.E9
  generalize k0_pay3 (F := Ideal) P0 P1 P2 P3 P4 = U
  have h1 : ∀ j : S128.Idx, (j 0).val = p.val → j = ix1 p := fun j h => funext fun a => Fin.ext (match a with | ⟨0, _⟩ => h)
  rw [normedSlice_at U 1024 (by omega) _ (Value.ix9_0 (ix2 p q)) (Value.ix9_1 (ix2 p q)) (Value.ix9_2 (ix2 p q)) p q rfl rfl (h1 _ rfl) (h1 _ rfl),
    normedSlice_at U 0 (by omega) _ (Value.ix9_6 (ix2 p q)) (Value.ix9_7 (ix2 p q)) (Value.ix9_8 (ix2 p q)) p q rfl rfl (h1 _ rfl) (h1 _ rfl),
    normedSlice_at U 2048 (by omega) _ (Value.ix9_11 (ix2 p q)) (Value.ix9_12 (ix2 p q)) (Value.ix9_13 (ix2 p q)) p q rfl rfl (h1 _ rfl) (h1 _ rfl)]
  have e_ix9_3 : Value.ix9_3 (ix2 p q) = ix2 (1 : Fin 4) q := funext fun a => match a with | ⟨0, _⟩ => rfl | ⟨1, _⟩ => rfl
  have e_ix9_4 : Value.ix9_4 (ix2 p q) = ix2 (1 : Fin 4) q := funext fun a => match a with | ⟨0, _⟩ => rfl | ⟨1, _⟩ => rfl
  have e_ix9_5 : Value.ix9_5 (ix2 p q) = ix2 p q := funext fun a => match a with | ⟨0, _⟩ => rfl | ⟨1, _⟩ => rfl
  have e_ix9_9 : Value.ix9_9 (ix2 p q) = ix2 (0 : Fin 4) q := funext fun a => match a with | ⟨0, _⟩ => rfl | ⟨1, _⟩ => rfl
  have e_ix9_10 : Value.ix9_10 (ix2 p q) = ix2 (0 : Fin 4) q := funext fun a => match a with | ⟨0, _⟩ => rfl | ⟨1, _⟩ => rfl
  have e_ix9_14 : Value.ix9_14 (ix2 p q) = ix2 (2 : Fin 4) q := funext fun a => match a with | ⟨0, _⟩ => rfl | ⟨1, _⟩ => rfl
  have e_ix9_15 : Value.ix9_15 (ix2 p q) = ix2 (2 : Fin 4) q := funext fun a => match a with | ⟨0, _⟩ => rfl | ⟨1, _⟩ => rfl
  rw [e_ix9_3, e_ix9_4, e_ix9_5, e_ix9_9, e_ix9_10, e_ix9_14, e_ix9_15]
  rfl

end Cert.KernelIdeal.Block

end
-- ==== Proof.KernelWhole.lean ====
/-
  From blocks to arrays. Grid point t handles rows 128·t … 128·t + 127: its blocks of x, h and c are those rows of the
  arrays, the weights, the bias and the layer norm's parameters are whole, and the result blocks it writes back are
  those rows of the results. Entry (p, q) of a result block is therefore entry (128·t + p, q) of the specification's
  whole-array function, and the 64 blocks cover the results.
-/
import proofs.«117319_j65120294142269_1_alg».proof.Proof.KernelBlock
import Idealize.ShloMosaic.Lib.Pipeline.Value
import Idealize.ShloMosaic.Lib.ValueLayout
import Idealize.ShloMosaic.Lib.Tactic

noncomputable section

open scoped BigOperators

namespace Cert.KernelIdeal.Whole

open Cert.KernelIdeal Cert.KernelIdeal.Gen Cert.KernelIdeal.Value Cert.KernelIdeal.Block
open Idealize.ShloMosaic Idealize.ShloMosaic.TcCoe Idealize.SL.Sem Idealize.ShloMosaic.ValueIdx Cert.Lstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the body leaves in the two result buffers, from any input blocks -/

theorem out8_apply (x0 : Vec Ideal S128x512 .f32) (x1 x2 : Vec Ideal S128x1024 .f32) (x3 : Vec Ideal S512x4096 .bf16)
    (x4 : Vec Ideal S1024x4096 .bf16) (x5 : Vec Ideal S1x4096 .f32) (x6 x7 : Vec Ideal S4x1024 .f32) (p : Fin 128) (q : Fin 1024) :
    out0_8 x0 x1 x2 x3 x4 x5 x6 x7 (ix2 p q)
      = hidden (pre (fun k => x0 (ix2 p k)) (fun k => x1 (ix2 p k)) x3 x4 (fun j => x5 (ix2 (0 : Fin 1) j))) x6 x7 (fun k => x2 (ix2 p k)) q := by
  unfold out0_8
  simp only [View.ld_unit_zero (S := S128x512) hz, View.ld_unit_zero (S := S128x1024) hz, View.ld_unit_zero (S := S512x4096) hz,
    View.ld_unit_zero (S := S1024x4096) hz, View.ld_unit_zero (S := S1x4096) hz, View.ld_unit_zero (S := S4x1024) hz]
  rw [canon8_eq, hiddenBlock_apply]

theorem out9_apply (x0 : Vec Ideal S128x512 .f32) (x1 x2 : Vec Ideal S128x1024 .f32) (x3 : Vec Ideal S512x4096 .bf16)
    (x4 : Vec Ideal S1024x4096 .bf16) (x5 : Vec Ideal S1x4096 .f32) (x6 x7 : Vec Ideal S4x1024 .f32) (p : Fin 128) (q : Fin 1024) :
    out0_9 x0 x1 x2 x3 x4 x5 x6 x7 (ix2 p q)
      = cellState (pre (fun k => x0 (ix2 p k)) (fun k => x1 (ix2 p k)) x3 x4 (fun j => x5 (ix2 (0 : Fin 1) j))) x6 x7 (fun k => x2 (ix2 p k)) q := by
  unfold out0_9
  simp only [View.ld_unit_zero (S := S128x512) hz, View.ld_unit_zero (S := S128x1024) hz, View.ld_unit_zero (S := S512x4096) hz,
    View.ld_unit_zero (S := S1024x4096) hz, View.ld_unit_zero (S := S1x4096) hz, View.ld_unit_zero (S := S4x1024) hz]
  rw [canon9_eq, cellBlock_apply]

/-! ## The blocks as rows of the arrays -/

/-- The printed index maps, decided over the grid's 64 points: the windows of x, h, c and of the two results are at
    block row t, every other window at its one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row p of grid point t's blocks is row 128 · t + p of the arrays. -/
def rowOf (t : Fin cfg0.N) (p : Fin 128) : Fin 8192 :=
  ⟨t.val * 128 + p.val, by have := t.isLt; have := p.isLt; have hN : cfg0.N = 64 := N_0; omega⟩

/-- The bf16 copies of the weights that the program makes before the region are the weights (a change of format is
    the identity on the extended reals), and the bias reshaped to one row is the bias. -/
theorem V_main_v0 (c : Dev nD) :
    (V m c main_v0 : S512x4096.Idx → EReal) = (m ((c : Thread nD τ).loc main_arg3) : S512x4096.Idx → EReal) := by
  dsimp only [Gen.V, Gen.hostOps0]; after_results; rfl

theorem V_main_v1 (c : Dev nD) :
    (V m c main_v1 : S1024x4096.Idx → EReal) = (m ((c : Thread nD τ).loc main_arg4) : S1024x4096.Idx → EReal) := by
  dsimp only [Gen.V, Gen.hostOps0]; after_results; rfl

theorem V_main_v2 (c : Dev nD) :
    (V m c main_v2 : S1x4096.Idx → EReal)
      = shapeCast S1x4096 (m ((c : Thread nD τ).loc main_arg5) : S4096.Idx → EReal) shapeCasts_S4096_S1x4096 := by
  dsimp only [Gen.V, Gen.hostOps0]; after_results; rfl

theorem xBlock_apply (c : Dev nD) (t : Fin cfg0.N) (p : Fin 128) (k : Fin 512) :
    (iblk m c 0 t : Vec Ideal S128x512 .f32) (ix2 p k) = (m ((c : Thread nD τ).loc main_arg0) : S8192x512.Idx → EReal) (ix2 (rowOf t p) k) := by
  obtain ⟨e0, e1⟩ := (idx_facts t).1
  unfold iblk
  rw [View.read_apply]
  show V m c main_arg0 _ = _
  rw [V_main_arg0]
  congr 1
  funext a
  apply Fin.ext
  match a with
  | ⟨0, _⟩ => show win0_0.index t (0 : Fin 2) * 128 + 1 * p.val = t.val * 128 + p.val; rw [e0]; omega
  | ⟨1, _⟩ => show win0_0.index t (1 : Fin 2) * 512 + 1 * k.val = k.val; rw [e1]; omega

theorem hBlock_apply (c : Dev nD) (t : Fin cfg0.N) (p : Fin 128) (k : Fin 1024) :
    (iblk m c 1 t : Vec Ideal S128x1024 .f32) (ix2 p k) = (m ((c : Thread nD τ).loc main_arg1) : S8192x1024.Idx → EReal) (ix2 (rowOf t p) k) := by
  obtain ⟨e0, e1⟩ := (idx_facts t).2.1
  unfold iblk
  rw [View.read_apply]
  show V m c main_arg1 _ = _
  rw [V_main_arg1]
  congr 1
  funext a
  apply Fin.ext
  match a with
  | ⟨0, _⟩ => show win0_1.index t (0 : Fin 2) * 128 + 1 * p.val = t.val * 128 + p.val; rw [e0]; omega
  | ⟨1, _⟩ => show win0_1.index t (1 : Fin 2) * 1024 + 1 * k.val = k.val; rw [e1]; omega

theorem cBlock_apply (c : Dev nD) (t : Fin cfg0.N) (p : Fin 128) (k : Fin 1024) :
    (iblk m c 2 t : Vec Ideal S128x1024 .f32) (ix2 p k) = (m ((c : Thread nD τ).loc main_arg2) : S8192x1024.Idx → EReal) (ix2 (rowOf t p) k) := by
  obtain ⟨e0, e1⟩ := (idx_facts t).2.2.1
  unfold iblk
  rw [View.read_apply]
  show V m c main_arg2 _ = _
  rw [V_main_arg2]
  congr 1
  funext a
  apply Fin.ext
  match a with
  | ⟨0, _⟩ => show win0_2.index t (0 : Fin 2) * 128 + 1 * p.val = t.val * 128 + p.val; rw [e0]; omega
  | ⟨1, _⟩ => show win0_2.index t (1 : Fin 2) * 1024 + 1 * k.val = k.val; rw [e1]; omega

theorem WiBlock_eq (c : Dev nD) (t : Fin cfg0.N) :
    (iblk m c 3 t : Vec Ideal S512x4096 .bf16) = (m ((c : Thread nD τ).loc main_arg3) : S512x4096.Idx → EReal) := by
  obtain ⟨e0, e1⟩ := (idx_facts t).2.2.2.1
  funext y
  unfold iblk
  rw [View.read_apply]
  show V m c main_v0 _ = _
  rw [V_main_v0]
  congr 1
  funext a
  apply Fin.ext
  match a with
  | ⟨0, _⟩ => show win0_3.index t (0 : Fin 2) * 512 + 1 * (y 0).val = (y 0).val; rw [e0]; omega
  | ⟨1, _⟩ => show win0_3.index t (1 : Fin 2) * 4096 + 1 * (y 1).val = (y 1).val; rw [e1]; omega

theorem WhBlock_eq (c : Dev nD) (t : Fin cfg0.N) :
    (iblk m c 4 t : Vec Ideal S1024x4096 .bf16) = (m ((c : Thread nD τ).loc main_arg4) : S1024x4096.Idx → EReal) := by
  obtain ⟨e0, e1⟩ := (idx_facts t).2.2.2.2.1
  funext y
  unfold iblk
  rw [View.read_apply]
  show V m c main_v1 _ = _
  rw [V_main_v1]
  congr 1
  funext a
  apply Fin.ext
  match a with
  | ⟨0, _⟩ => show win0_4.index t (0 : Fin 2) * 1024 + 1 * (y 0).val = (y 0).val; rw [e0]; omega
  | ⟨1, _⟩ => show win0_4.index t (1 : Fin 2) * 4096 + 1 * (y 1).val = (y 1).val; rw [e1]; omega

theorem gammaBlock_eq (c : Dev nD) (t : Fin cfg0.N) :
    (iblk m c 6 t : Vec Ideal S4x1024 .f32) = (m ((c : Thread nD τ).loc main_arg6) : S4x1024.Idx → EReal) := by
  obtain ⟨e0, e1⟩ := (idx_facts t).2.2.2.2.2.2.1
  funext y
  unfold iblk
  rw [View.read_apply]
  show V m c main_arg6 _ = _
  rw [V_main_arg6]
  congr 1
  funext a
  apply Fin.ext
  match a with
  | ⟨0, _⟩ => show win0_6.index t (0 : Fin 2) * 4 + 1 * (y 0).val = (y 0).val; rw [e0]; omega
  | ⟨1, _⟩ => show win0_6.index t (1 : Fin 2) * 1024 + 1 * (y 1).val = (y 1).val; rw [e1]; omega

theorem betaBlock_eq (c : Dev nD) (t : Fin cfg0.N) :
    (iblk m c 7 t : Vec Ideal S4x1024 .f32) = (m ((c : Thread nD τ).loc main_arg7) : S4x1024.Idx → EReal) := by
  obtain ⟨e0, e1⟩ := (idx_facts t).2.2.2.2.2.2.2.1
  funext y
  unfold iblk
  rw [View.read_apply]
  show V m c main_arg7 _ = _
  rw [V_main_arg7]
  congr 1
  funext a
  apply Fin.ext
  match a with
  | ⟨0, _⟩ => show win0_7.index t (0 : Fin 2) * 4 + 1 * (y 0).val = (y 0).val; rw [e0]; omega
  | ⟨1, _⟩ => show win0_7.index t (1 : Fin 2) * 1024 + 1 * (y 1).val = (y 1).val; rw [e1]; omega

/-- The one-row bias block at column j is the bias at j. -/
theorem biasBlock_apply (c : Dev nD) (t : Fin cfg0.N) (j : Fin 4096) :
    (iblk m c 5 t : Vec Ideal S1x4096 .f32) (ix2 (0 : Fin 1) j) = (m ((c : Thread nD τ).loc main_arg5) : S4096.Idx → EReal) (ix1 j) := by
  obtain ⟨e0, e1⟩ := (idx_facts t).2.2.2.2.2.1
  unfold iblk
  rw [View.read_apply]
  show V m c main_v2 _ = _
  rw [V_main_v2]
  have he : ((cfg0.win 5).blk t).view.emb (ix2 (0 : Fin 1) j) = ix2 (0 : Fin 1) j := funext fun a => Fin.ext (match a with
    | ⟨0, _⟩ => by show win0_5.index t (0 : Fin 2) * 1 + 1 * 0 = 0; rw [e0]
    | ⟨1, _⟩ => by show win0_5.index t (1 : Fin 2) * 4096 + 1 * j.val = j.val; rw [e1]; omega)
  rw [he]
  exact shapeCast_a_1a_apply _ shapeCasts_S4096_S1x4096 (0 : Fin 1) j

/-! ## The results, whole -/

/-- The specification's new hidden state of the arguments as launched. -/
abbrev hiddenOf (c : Dev nD) : S8192x1024.Idx → EReal :=
  hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The specification's new cell state of the arguments as launched. -/
abbrev cellOf (c : Dev nD) : S8192x1024.Idx → EReal :=
  cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What grid point t writes back to the result is block t of the specification's array. -/
theorem flushed8_eq (c : Dev nD) (t : Fin cfg0.N) :
    (dats m 0 c).flushed 8 t = ((cfg0.win 8).blk t).view.read (Elt Ideal) (hiddenOf m c) := by
  obtain ⟨e0, e1⟩ := (idx_facts t).2.2.2.2.2.2.2.2.1
  rw [flushed8]
  funext y
  obtain ⟨p, q, rfl⟩ : ∃ (p : Fin 128) (q : Fin 1024), y = ix2 p q := ⟨y 0, y 1, eq_ix2 y⟩
  show out0_8 (iblk m c 0 t) (iblk m c 1 t) (iblk m c 2 t) (iblk m c 3 t) (iblk m c 4 t) (iblk m c 5 t) (iblk m c 6 t) (iblk m c 7 t) (ix2 p q)
    = hiddenOf m c (((cfg0.win 8).blk t).view.emb (ix2 p q))
  have he : ((cfg0.win 8).blk t).view.emb (ix2 p q) = ix2 (rowOf t p) q := funext fun a => Fin.ext (match a with
    | ⟨0, _⟩ => by show win0_8.index t (0 : Fin 2) * 128 + 1 * p.val = t.val * 128 + p.val; rw [e0]; omega
    | ⟨1, _⟩ => by show win0_8.index t (1 : Fin 2) * 1024 + 1 * q.val = q.val; rw [e1]; omega)
  rw [he, out8_apply]
  simp only [xBlock_apply, hBlock_apply, cBlock_apply, WiBlock_eq, WhBlock_eq, biasBlock_apply, gammaBlock_eq, betaBlock_eq]
  rfl

/-- An index of the result is in point t's block iff its row is one of the point's 128 rows. -/
theorem mem_blk8 (t : Fin cfg0.N) (i : S8192x1024.Idx) :
    i ∈ ((cfg0.win 8).blk t).view.set ↔ ∀ a : Fin 2, win0_8.index t a * S128x1024.size a ≤ (i a).val ∧ (i a).val < win0_8.index t a * S128x1024.size a + S128x1024.size a := by
  show i ∈ ((View.whole main_v3_0).slice (win0_8.rect t)).set ↔ _
  rw [View.set_slice_whole, Rect.mem_set_unit]
  exact Iff.rfl

/-- The 64 blocks cover the result: row r is in the block of point r / 128. -/
theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 64 := N_0
  refine ⟨⟨(i 0).val / 128, by omega⟩, flush0_8 _, ?_⟩
  obtain ⟨e0, e1⟩ := (idx_facts ⟨(i 0).val / 128, by omega⟩).2.2.2.2.2.2.2.2.1
  rw [mem_blk8]
  intro a
  match a with
  | ⟨0, _⟩ =>
    show win0_8.index _ (0 : Fin 2) * 128 ≤ (i 0).val ∧ (i 0).val < win0_8.index _ (0 : Fin 2) * 128 + 128
    rw [e0]; show (i 0).val / 128 * 128 ≤ (i 0).val ∧ (i 0).val < (i 0).val / 128 * 128 + 128; omega
  | ⟨1, _⟩ =>
    show win0_8.index _ (1 : Fin 2) * 1024 ≤ (i 1).val ∧ (i 1).val < win0_8.index _ (1 : Fin 2) * 1024 + 1024
    rw [e1]; omega

/-- So the result array after the run is the specification's. -/
theorem final8 (c : Dev nD) : (dats m 0 c).arrAt 8 cfg0.N = hiddenOf m c :=
  (dats m 0 c).arrAt_eq_of_cover 8 (hiddenOf m c) (fun t _ => flushed8_eq m c t) cover8

/-- What grid point t writes back to the result is block t of the specification's array. -/
theorem flushed9_eq (c : Dev nD) (t : Fin cfg0.N) :
    (dats m 0 c).flushed 9 t = ((cfg0.win 9).blk t).view.read (Elt Ideal) (cellOf m c) := by
  obtain ⟨e0, e1⟩ := (idx_facts t).2.2.2.2.2.2.2.2.2
  rw [flushed9]
  funext y
  obtain ⟨p, q, rfl⟩ : ∃ (p : Fin 128) (q : Fin 1024), y = ix2 p q := ⟨y 0, y 1, eq_ix2 y⟩
  show out0_9 (iblk m c 0 t) (iblk m c 1 t) (iblk m c 2 t) (iblk m c 3 t) (iblk m c 4 t) (iblk m c 5 t) (iblk m c 6 t) (iblk m c 7 t) (ix2 p q)
    = cellOf m c (((cfg0.win 9).blk t).view.emb (ix2 p q))
  have he : ((cfg0.win 9).blk t).view.emb (ix2 p q) = ix2 (rowOf t p) q := funext fun a => Fin.ext (match a with
    | ⟨0, _⟩ => by show win0_9.index t (0 : Fin 2) * 128 + 1 * p.val = t.val * 128 + p.val; rw [e0]; omega
    | ⟨1, _⟩ => by show win0_9.index t (1 : Fin 2) * 1024 + 1 * q.val = q.val; rw [e1]; omega)
  rw [he, out9_apply]
  simp only [xBlock_apply, hBlock_apply, cBlock_apply, WiBlock_eq, WhBlock_eq, biasBlock_apply, gammaBlock_eq, betaBlock_eq]
  rfl

/-- An index of the result is in point t's block iff its row is one of the point's 128 rows. -/
theorem mem_blk9 (t : Fin cfg0.N) (i : S8192x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v3_1).slice (win0_9.rect t)).set ↔ _
  rw [View.set_slice_whole, Rect.mem_set_unit]
  exact Iff.rfl

/-- The 64 blocks cover the result: row r is in the block of point r / 128. -/
theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 64 := N_0
  refine ⟨⟨(i 0).val / 128, by omega⟩, flush0_9 _, ?_⟩
  obtain ⟨e0, e1⟩ := (idx_facts ⟨(i 0).val / 128, by omega⟩).2.2.2.2.2.2.2.2.2
  rw [mem_blk9]
  intro a
  match a with
  | ⟨0, _⟩ =>
    show win0_9.index _ (0 : Fin 2) * 128 ≤ (i 0).val ∧ (i 0).val < win0_9.index _ (0 : Fin 2) * 128 + 128
    rw [e0]; show (i 0).val / 128 * 128 ≤ (i 0).val ∧ (i 0).val < (i 0).val / 128 * 128 + 128; omega
  | ⟨1, _⟩ =>
    show win0_9.index _ (1 : Fin 2) * 1024 ≤ (i 1).val ∧ (i 1).val < win0_9.index _ (1 : Fin 2) * 1024 + 1024
    rw [e1]; omega

/-- So the result array after the run is the specification's. -/
theorem final9 (c : Dev nD) : (dats m 0 c).arrAt 9 cfg0.N = cellOf m c :=
  (dats m 0 c).arrAt_eq_of_cover 9 (cellOf m c) (fun t _ => flushed9_eq m c t) cover9

/-- The run, read: both results at the specification's functions of the arguments, the arguments unchanged. -/
theorem run : θ_run defs (onTc (τ := τ) (main (F := Ideal))) ⟨m, fun _ => 0, ρ⟩ fun r => ∀ c : Dev nD,
      r.2.mem ((c : Thread nD τ).loc main_v3_0) = hiddenOf m c
      ∧ r.2.mem ((c : Thread nD τ).loc main_v3_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final8 m c), (h c).2.1.trans (final9 m c), (h c).2.2⟩)
    (Cert.KernelIdeal.Value.run_blocks m ρ)

end Cert.KernelIdeal.Whole

end
-- ==== Proof.RefRows.lean ====
/-
  The reference, entry by entry: its host operations, read one at a time at an index, compose to the row functions of
  the specification. The reference reshapes the [8192, 4096] pre-activations to [8192, 4, 1024], so that gate g of row r
  is the chunk of row r that starts at column 1024 · g; it normalises every (r, g) chunk in one go, and spells the
  logistic function as 1 / (1 + exp (-v)), which is the extended reals' logistic function by definition.
-/
import proofs.«117319_j65120294142269_1_alg».proof.Proof.Gen.ReferenceIdeal.Read
import proofs.«117319_j65120294142269_1_alg».proof.Proof.Spec
import Idealize.ShloMosaic.Lib.IdealHost

noncomputable section

open scoped BigOperators

namespace Cert.ReferenceIdeal.Rows

open Cert.ReferenceIdeal Cert.ReferenceIdeal.Read Idealize.ShloMosaic Idealize.ShloMosaic.ValueIdx Cert.Lstm

variable (x0 : (⟨S8192x512, .f32⟩ : BufTy).Contents (Elt Ideal)) (x1 x2 : (⟨S8192x1024, .f32⟩ : BufTy).Contents (Elt Ideal))
  (x3 : (⟨S512x4096, .f32⟩ : BufTy).Contents (Elt Ideal)) (x4 : (⟨S1024x4096, .f32⟩ : BufTy).Contents (Elt Ideal))
  (x5 : (⟨S4096, .f32⟩ : BufTy).Contents (Elt Ideal)) (x6 x7 : (⟨S4x1024, .f32⟩ : BufTy).Contents (Elt Ideal))

/-- The pre-activations at (r, j): row r of x against column j of Wi, row r of h against column j of Wh, the bias at j. -/
theorem pre_apply (r : Fin 8192) (j : Fin 4096) :
    val_main_v5 (F := Ideal) x0 x1 x3 x4 x5 (ix2 r j) = preRow x0 x1 x3 x4 x5 r j := by
  rw [val_main_v5_apply, val_main_v2_apply, val_main_v0_apply, val_main_v1_apply, val_main_v4_apply, val_main_v3_apply]
  have e0 : ∀ k, lidx_main_v0 (ix2 r j) k = ix2 r k := fun k => funext fun a => match a with | ⟨0, _⟩ => rfl | ⟨1, _⟩ => rfl
  have e1 : ∀ k, ridx_main_v0 (ix2 r j) k = ix2 k j := fun k => funext fun a => match a with | ⟨0, _⟩ => rfl | ⟨1, _⟩ => rfl
  have e2 : ∀ k, lidx_main_v1 (ix2 r j) k = ix2 r k := fun k => funext fun a => match a with | ⟨0, _⟩ => rfl | ⟨1, _⟩ => rfl
  have e3 : ∀ k, ridx_main_v1 (ix2 r j) k = ix2 k j := fun k => funext fun a => match a with | ⟨0, _⟩ => rfl | ⟨1, _⟩ => rfl
  have e4 : idx_main_v3 (idx_main_v4 (ix2 r j)) = ix1 j := funext fun a => match a with | ⟨0, _⟩ => rfl
  simp only [e0, e1, e2, e3, e4]
  rfl

/-- Gate `g`'s chunk of a row of 4096: the 1024 entries from 1024 · g on. -/
def chunkAt (g : Fin 4) (u : Fin 4096 → EReal) : Fin 1024 → EReal :=
  fun k => u ⟨g.val * 1024 + k.val, by have := g.isLt; have := k.isLt; omega⟩

/-- The reshaped pre-activations at (r, g, k): entry k of gate g's chunk of row r. -/
theorem split_apply (r : Fin 8192) (g : Fin 4) (k : Fin 1024) :
    val_main_v6 (F := Ideal) x0 x1 x3 x4 x5 (ix3 r g k) = chunkAt g (preRow x0 x1 x3 x4 x5 r) k := by
  rw [val_main_v6_apply]
  have e : idx_main_v6 (ix3 r g k) = ix2 r ⟨g.val * 1024 + k.val, by have := g.isLt; have := k.isLt; omega⟩ :=
    funext fun a => Fin.ext (by
      have hr := r.isLt; have hg := g.isLt; have hk := k.isLt
      match a with
      | ⟨0, _⟩ => show ((r.val * 4 + g.val) * 1024 + k.val) / 4096 = r.val; omega
      | ⟨1, _⟩ => show ((r.val * 4 + g.val) * 1024 + k.val) % 4096 = g.val * 1024 + k.val; omega)
  rw [e, pre_apply]
  rfl

/-- The mean of chunk (r, g), kept along the last axis. -/
theorem mean_apply (r : Fin 8192) (g : Fin 4) (i : S8192x4x1.Idx) (hi : i = ix3 r g (0 : Fin 1)) :
    val_main_v10 (F := Ideal) x0 x1 x3 x4 x5 i = mean (chunkAt g (preRow x0 x1 x3 x4 x5 r)) := by
  subst hi
  rw [val_main_v10_apply, val_main_v8_apply, val_main_v7_apply, val_main_v9_apply, val_main_cst_0_apply, val_main_cst_apply]
  have e : ∀ k, idx_main_v7 (idx_main_v8 (ix3 r g (0 : Fin 1))) k = ix3 r g k :=
    fun k => funext fun a => match a with | ⟨0, _⟩ => rfl | ⟨1, _⟩ => rfl | ⟨2, _⟩ => rfl
  simp only [e, split_apply]
  show Ideal.div (Ideal.ofBits .f32 0x00000000#32 + _) (Ideal.ofBits .f32 0x44800000#32) = _
  rw [Ideal.ofBits_zero_f32, zero_add]
  rfl

/-- An entry of chunk (r, g) minus the chunk's mean (the reference computes this twice; both read the same). -/
theorem centred_apply (r : Fin 8192) (g : Fin 4) (k : Fin 1024) :
    val_main_v12 (F := Ideal) x0 x1 x3 x4 x5 (ix3 r g k)
      = chunkAt g (preRow x0 x1 x3 x4 x5 r) k - mean (chunkAt g (preRow x0 x1 x3 x4 x5 r)) := by
  rw [val_main_v12_apply, val_main_v11_apply, split_apply,
    mean_apply x0 x1 x3 x4 x5 r g (idx_main_v11 (ix3 r g k)) (funext fun a => match a with | ⟨0, _⟩ => rfl | ⟨1, _⟩ => rfl | ⟨2, _⟩ => rfl)]
  rfl

theorem centred_apply' (r : Fin 8192) (g : Fin 4) (k : Fin 1024) :
    val_main_v19 (F := Ideal) x0 x1 x3 x4 x5 (ix3 r g k)
      = chunkAt g (preRow x0 x1 x3 x4 x5 r) k - mean (chunkAt g (preRow x0 x1 x3 x4 x5 r)) := by
  rw [val_main_v19_apply, val_main_v18_apply, split_apply,
    mean_apply x0 x1 x3 x4 x5 r g (idx_main_v18 (ix3 r g k)) (funext fun a => match a with | ⟨0, _⟩ => rfl | ⟨1, _⟩ => rfl | ⟨2, _⟩ => rfl)]
  rfl

/-- The variance of chunk (r, g), kept along the last axis. -/
theorem var_apply (r : Fin 8192) (g : Fin 4) (i : S8192x4x1.Idx) (hi : i = ix3 r g (0 : Fin 1)) :
    val_main_v17 (F := Ideal) x0 x1 x3 x4 x5 i = var (chunkAt g (preRow x0 x1 x3 x4 x5 r)) := by
  subst hi
  rw [val_main_v17_apply, val_main_v15_apply, val_main_v14_apply, val_main_v16_apply, val_main_cst_2_apply, val_main_cst_1_apply]
  have e : ∀ k, idx_main_v14 (idx_main_v15 (ix3 r g (0 : Fin 1))) k = ix3 r g k :=
    fun k => funext fun a => match a with | ⟨0, _⟩ => rfl | ⟨1, _⟩ => rfl | ⟨2, _⟩ => rfl
  simp only [e, val_main_v13_apply, centred_apply]
  show Ideal.div (Ideal.ofBits .f32 0x00000000#32 + _) (Ideal.ofBits .f32 0x44800000#32) = _
  rw [Ideal.ofBits_zero_f32, zero_add]
  rfl

/-- The normalised, scaled and shifted entry (r, g, q): the specification's gate, of chunk (r, g). -/
theorem gate_apply (r : Fin 8192) (g : Fin 4) (q : Fin 1024) :
    val_main_v30 (F := Ideal) x0 x1 x3 x4 x5 x6 x7 (ix3 r g q)
      = normed (chunkAt g (preRow x0 x1 x3 x4 x5 r)) q * x6 (ix2 g q) + x7 (ix2 g q) := by
  rw [val_main_v30_apply, val_main_v27_apply, val_main_v24_apply, val_main_v23_apply, val_main_v22_apply, val_main_v21_apply,
    val_main_v20_apply, val_main_cst_3_apply, centred_apply',
    var_apply x0 x1 x3 x4 x5 r g (idx_main_v23 (ix3 r g q)) (funext fun a => match a with | ⟨0, _⟩ => rfl | ⟨1, _⟩ => rfl | ⟨2, _⟩ => rfl),
    val_main_v26_apply, val_main_v25_apply, val_main_v29_apply, val_main_v28_apply]
  have e6 : idx_main_v25 (idx_main_v26 (ix3 r g q)) = ix2 g q := funext fun a => match a with | ⟨0, _⟩ => rfl | ⟨1, _⟩ => rfl
  have e7 : idx_main_v28 (idx_main_v29 (ix3 r g q)) = ix2 g q := funext fun a => match a with | ⟨0, _⟩ => rfl | ⟨1, _⟩ => rfl
  rw [e6, e7]
  rfl

/-! ## The four gates, cut out of the normalised [8192, 4, 1024] array, and the cell -/

/-- Gate `g`'s chunk starts at column 1024 · g. -/
theorem chunkAt_eq (g : Fin 4) (o : Nat) (ho : o + 1024 ≤ 4096) (hgo : g.val * 1024 = o) (u : Fin 4096 → EReal) :
    chunkAt g u = chunk o ho u :=
  funext fun k => congrArg u (Fin.ext (by show g.val * 1024 + k.val = o + k.val; omega))

theorem gateI_apply (r : Fin 8192) (q : Fin 1024) :
    val_main_v32 (F := Ideal) x0 x1 x3 x4 x5 x6 x7 (ix2 r q) = gate (preRow x0 x1 x3 x4 x5 r) x6 x7 0 0 (by omega) q := by
  rw [val_main_v32_apply, val_main_v31_apply]
  have e : idx_main_v31 (idx_main_v32 (ix2 r q)) = ix3 r (0 : Fin 4) q :=
    funext fun a => Fin.ext (by
      have hr := r.isLt; have hq := q.isLt
      match a with
      | ⟨0, _⟩ => show (r.val * 1024 + q.val) / 1024 = r.val; omega
      | ⟨1, _⟩ => rfl
      | ⟨2, _⟩ => show (r.val * 1024 + q.val) % 1024 = q.val; omega)
  rw [e, gate_apply, chunkAt_eq 0 0 (by omega) rfl]
  rfl

theorem gateF_apply (r : Fin 8192) (q : Fin 1024) :
    val_main_v34 (F := Ideal) x0 x1 x3 x4 x5 x6 x7 (ix2 r q) = gate (preRow x0 x1 x3 x4 x5 r) x6 x7 1 1024 (by omega) q := by
  rw [val_main_v34_apply, val_main_v33_apply]
  have e : idx_main_v33 (idx_main_v34 (ix2 r q)) = ix3 r (1 : Fin 4) q :=
    funext fun a => Fin.ext (by
      have hr := r.isLt; have hq := q.isLt
      match a with
      | ⟨0, _⟩ => show (r.val * 1024 + q.val) / 1024 = r.val; omega
      | ⟨1, _⟩ => rfl
      | ⟨2, _⟩ => show (r.val * 1024 + q.val) % 1024 = q.val; omega)
  rw [e, gate_apply, chunkAt_eq 1 1024 (by omega) rfl]
  rfl

theorem gateG_apply (r : Fin 8192) (q : Fin 1024) :
    val_main_v36 (F := Ideal) x0 x1 x3 x4 x5 x6 x7 (ix2 r q) = gate (preRow x0 x1 x3 x4 x5 r) x6 x7 2 2048 (by omega) q := by
  rw [val_main_v36_apply, val_main_v35_apply]
  have e : idx_main_v35 (idx_main_v36 (ix2 r q)) = ix3 r (2 : Fin 4) q :=
    funext fun a => Fin.ext (by
      have hr := r.isLt; have hq := q.isLt
      match a with
      | ⟨0, _⟩ => show (r.val * 1024 + q.val) / 1024 = r.val; omega
      | ⟨1, _⟩ => rfl
      | ⟨2, _⟩ => show (r.val * 1024 + q.val) % 1024 = q.val; omega)
  rw [e, gate_apply, chunkAt_eq 2 2048 (by omega) rfl]
  rfl

theorem gateO_apply (r : Fin 8192) (q : Fin 1024) :
    val_main_v38 (F := Ideal) x0 x1 x3 x4 x5 x6 x7 (ix2 r q) = gate (preRow x0 x1 x3 x4 x5 r) x6 x7 3 3072 (by omega) q := by
  rw [val_main_v38_apply, val_main_v37_apply]
  have e : idx_main_v37 (idx_main_v38 (ix2 r q)) = ix3 r (3 : Fin 4) q :=
    funext fun a => Fin.ext (by
      have hr := r.isLt; have hq := q.isLt
      match a with
      | ⟨0, _⟩ => show (r.val * 1024 + q.val) / 1024 = r.val; omega
      | ⟨1, _⟩ => rfl
      | ⟨2, _⟩ => show (r.val * 1024 + q.val) % 1024 = q.val; omega)
  rw [e, gate_apply, chunkAt_eq 3 3072 (by omega) rfl]
  rfl

/-! The reference's 1 / (1 + exp (-v)) is the logistic function of the extended reals. -/

theorem sigF_apply (r : Fin 8192) (q : Fin 1024) :
    val_main_v44 (F := Ideal) x0 x1 x3 x4 x5 x6 x7 (ix2 r q) = Ideal.logistic (gate (preRow x0 x1 x3 x4 x5 r) x6 x7 1 1024 (by omega) q) := by
  rw [val_main_v44_apply, val_main_v43_apply, val_main_cst_5_apply, val_main_v42_apply, val_main_v41_apply,
    val_main_cst_4_apply, val_main_v40_apply, val_main_v39_apply, gateF_apply]
  show Ideal.div (Ideal.ofBits .f32 0x3F800000#32) (Ideal.ofBits .f32 0x3F800000#32 + Ideal.exp (-_)) = _
  rw [Ideal.ofBits_one_f32]
  rfl

theorem sigI_apply (r : Fin 8192) (q : Fin 1024) :
    val_main_v51 (F := Ideal) x0 x1 x3 x4 x5 x6 x7 (ix2 r q) = Ideal.logistic (gate (preRow x0 x1 x3 x4 x5 r) x6 x7 0 0 (by omega) q) := by
  rw [val_main_v51_apply, val_main_v50_apply, val_main_cst_7_apply, val_main_v49_apply, val_main_v48_apply,
    val_main_cst_6_apply, val_main_v47_apply, val_main_v46_apply, gateI_apply]
  show Ideal.div (Ideal.ofBits .f32 0x3F800000#32) (Ideal.ofBits .f32 0x3F800000#32 + Ideal.exp (-_)) = _
  rw [Ideal.ofBits_one_f32]
  rfl

theorem sigO_apply (r : Fin 8192) (q : Fin 1024) :
    val_main_v60 (F := Ideal) x0 x1 x3 x4 x5 x6 x7 (ix2 r q) = Ideal.logistic (gate (preRow x0 x1 x3 x4 x5 r) x6 x7 3 3072 (by omega) q) := by
  rw [val_main_v60_apply, val_main_v59_apply, val_main_cst_9_apply, val_main_v58_apply, val_main_v57_apply,
    val_main_cst_8_apply, val_main_v56_apply, val_main_v55_apply, gateO_apply]
  show Ideal.div (Ideal.ofBits .f32 0x3F800000#32) (Ideal.ofBits .f32 0x3F800000#32 + Ideal.exp (-_)) = _
  rw [Ideal.ofBits_one_f32]
  rfl

/-- The new cell state at (r, q). -/
theorem cell_apply (r : Fin 8192) (q : Fin 1024) :
    val_main_v54 (F := Ideal) x0 x1 x2 x3 x4 x5 x6 x7 (ix2 r q)
      = cellState (preRow x0 x1 x3 x4 x5 r) x6 x7 (fun k => x2 (ix2 r k)) q := by
  rw [val_main_v54_apply, val_main_v45_apply, val_main_v53_apply, val_main_v52_apply, sigF_apply, sigI_apply, gateG_apply]
  rfl

/-- The new hidden state at (r, q). -/
theorem hidden_apply (r : Fin 8192) (q : Fin 1024) :
    val_main_v62 (F := Ideal) x0 x1 x2 x3 x4 x5 x6 x7 (ix2 r q)
      = hidden (preRow x0 x1 x3 x4 x5 r) x6 x7 (fun k => x2 (ix2 r k)) q := by
  rw [val_main_v62_apply, val_main_v61_apply, sigO_apply, cell_apply]
  rfl

/-- The reference's two results are the specification's whole-array functions of its arguments. -/
theorem cell_eq : val_main_v54 (F := Ideal) x0 x1 x2 x3 x4 x5 x6 x7 = cellArr x0 x1 x2 x3 x4 x5 x6 x7 :=
  funext fun i => by
    obtain ⟨r, q, rfl⟩ : ∃ (r : Fin 8192) (q : Fin 1024), i = ix2 r q := ⟨i 0, i 1, eq_ix2 i⟩
    exact cell_apply x0 x1 x2 x3 x4 x5 x6 x7 r q

theorem hidden_eq : val_main_v62 (F := Ideal) x0 x1 x2 x3 x4 x5 x6 x7 = hiddenArr x0 x1 x2 x3 x4 x5 x6 x7 :=
  funext fun i => by
    obtain ⟨r, q, rfl⟩ : ∃ (r : Fin 8192) (q : Fin 1024), i = ix2 r q := ⟨i 0, i 1, eq_ix2 i⟩
    exact hidden_apply x0 x1 x2 x3 x4 x5 x6 x7 r q

end Cert.ReferenceIdeal.Rows

end
-- ==== Proof.lean ====
/-
  An LSTM cell whose four gates are layer-normalised, against its jnp reference, as functions on the extended reals.

  Both programs compute, for every batch row r, the pre-activations u = x_r · Wi + h_r · Wh + b (4096 entries, four
  chunks of 1024: input, forget, cell, output), normalise each chunk over its 1024 entries
  ((v - mean v) · rsqrt (var v + ε), scaled by γ and shifted by β, row g of γ and β for gate g), and then
  c' = σ(f) · c + σ(i) · tanh(g) and h' = σ(o) · tanh(c'). The kernel does this for 128 rows per grid point, with the
  weights, the bias, γ and β held whole, the weights and the activations narrowed to bf16 before the two products
  (a change of format is the identity on the extended reals), each chunk cut out of the 128 × 4096 block by columns,
  its row sums kept as a column and broadcast back. The reference computes the 8192 × 4096 pre-activations at once,
  reshapes them to 8192 × 4 × 1024, normalises along the last axis and cuts the four gates out along the middle one;
  it spells σ(v) as 1 / (1 + exp (-v)), which is the logistic function of the extended reals by definition.
  No algebraic law joins the two sides beyond that: entry by entry they are the same expression in the same order,
  so the precondition (finite inputs) is never opened.

  Spec.lean states that expression once, as functions of one row; KernelBlock.lean reads a grid point's result
  blocks entry by entry as those functions of the point's input rows; KernelWhole.lean reads the input blocks as rows
  of the arrays and lays the 64 result blocks out as the whole results; RefRows.lean reads the reference's operations
  one at a time to the same functions. Here: the three frames (the kernel's two are the generated frames; the
  reference's is its generated run with the results dropped), the idealization (the ideal pass rewrote nothing) and
  the equality of the results.
-/
import proofs.«117319_j65120294142269_1_alg».proof.Defs
import proofs.«117319_j65120294142269_1_alg».proof.Proof.Gen.Kernel
import proofs.«117319_j65120294142269_1_alg».proof.Proof.Gen.Kernel.Skeleton
import proofs.«117319_j65120294142269_1_alg».proof.Proof.Gen.Kernel.Launch
import proofs.«117319_j65120294142269_1_alg».proof.Proof.Gen.Kernel.Points
import proofs.«117319_j65120294142269_1_alg».proof.Proof.Gen.Kernel.Frame
import proofs.«117319_j65120294142269_1_alg».proof.Proof.Gen.KernelIdeal
import proofs.«117319_j65120294142269_1_alg».proof.Proof.Gen.KernelIdeal.Skeleton
import proofs.«117319_j65120294142269_1_alg».proof.Proof.Gen.KernelIdeal.Launch
import proofs.«117319_j65120294142269_1_alg».proof.Proof.Gen.KernelIdeal.Points
import proofs.«117319_j65120294142269_1_alg».proof.Proof.Gen.KernelIdeal.Frame
import proofs.«117319_j65120294142269_1_alg».proof.Proof.Gen.ReferenceIdeal
import proofs.«117319_j65120294142269_1_alg».proof.Proof.Gen.Pre_finite_inputs
import proofs.«117319_j65120294142269_1_alg».proof.Proof.Gen.KernelIdeal.Value
import proofs.«117319_j65120294142269_1_alg».proof.Proof.Gen.ReferenceIdeal.Run
import proofs.«117319_j65120294142269_1_alg».proof.Proof.Gen.ReferenceIdeal.Read
import proofs.«117319_j65120294142269_1_alg».proof.Proof.KernelWhole
import proofs.«117319_j65120294142269_1_alg».proof.Proof.RefRows
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel. -/
theorem preserves : Cert.preserves_Kernel_KernelIdeal := trivial

/-- From memories that agree on the arguments both programs end with the specification's new hidden state and new
    cell state of those arguments: the kernel by its 64 blocks (`Whole.run`), the reference operation by operation
    (`Rows.hidden_eq`, `Rows.cell_eq`). -/
theorem algebraic : Cert.algebraic_KernelIdeal_ReferenceIdeal := by
  intro m ρ m' ρ' _ hagree
  refine ⟨fun c => Cert.KernelIdeal.Whole.hiddenOf m c, fun c => Cert.KernelIdeal.Whole.cellOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7⟩ := hagree c
    rw [Cert.ReferenceIdeal.Read.val_main_v62_eq, Cert.ReferenceIdeal.Rows.hidden_eq, a0, a1, a2, a3, a4, a5, a6, a7]
  · obtain ⟨a0, a1, a2, a3, a4, a5, a6, a7⟩ := hagree c
    rw [Cert.ReferenceIdeal.Read.val_main_v54_eq, Cert.ReferenceIdeal.Rows.cell_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
